-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100001x1 : S_.BroadcastsInDim S100001x1 (![] : Fin 0 → Fin S100001x1.rank)
  reducesTo_S100001x1_S_d0_1 : S100001x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S1600000x128 .f32) (main_arg2 : IVec S50000 32) (main_arg3 : IVec S50000x32 32) (main_arg4 : FVec F S100001x1 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100001x1 .f32 := Host.absf main_arg4
  let main_cst_2 : FVec F S_ .f32 := constant S_ .f32 0x7F800000#32
  let main_v10 : FVec F S100001x1 .f32 := broadcastInDim S100001x1 ![] bcast_S_S100001x1 main_cst_2
  let main_v11 : IVec S100001x1 1 := cmpf .olt main_v9 main_v10
  let main_c_3 : IVec S_ 1 := constantI S_ 1 1#1
  let main_v12 : IVec S_ 1 := (fun x v => Host.reduce IntOp.andi x v reducesTo_S100001x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S100001 : Shape := ⟨1, ![100001]⟩
abbrev S_ : Shape := ⟨0, ![]⟩
abbrev S50000x32x1 : Shape := ⟨3, ![50000, 32, 1]⟩
abbrev S50000x32x128 : Shape := ⟨3, ![50000, 32, 128]⟩
abbrev S1x128 : Shape := ⟨2, ![1, 128]⟩
abbrev S1000x32 : Shape := ⟨2, ![1000, 32]⟩
abbrev S1000x32x128 : Shape := ⟨3, ![1000, 32, 128]⟩
abbrev S1000x128 : Shape := ⟨2, ![1000, 128]⟩
abbrev S1000 : Shape := ⟨1, ![1000]⟩
abbrev S1000x1 : Shape := ⟨2, ![1000, 1]⟩
abbrev S1000x32x1 : Shape := ⟨3, ![1000, 32, 1]⟩

abbrev nBuf : Space → Nat
  | .hbm => 20
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S50000, .i32⟩
  | .hbm, ⟨3, _⟩ => ⟨S50000x32, .i32⟩
  | .hbm, ⟨4, _⟩ => ⟨S100001x1, .f32⟩
  | .hbm, ⟨5, _⟩ => ⟨S128x128, .f32⟩
  | .hbm, ⟨6, _⟩ => ⟨S128, .f32⟩
  | .hbm, ⟨7, _⟩ => ⟨S100001, .f32⟩
  | .hbm, ⟨8, _⟩ => ⟨S_, .i32⟩
  | .hbm, ⟨9, _⟩ => ⟨S50000x32, .i32⟩
  | .hbm, ⟨10, _⟩ => ⟨S50000x32, .i1⟩
  | .hbm, ⟨11, _⟩ => ⟨S_, .i32⟩
  | .hbm, ⟨12, _⟩ => ⟨S50000x32, .i32⟩
  | .hbm, ⟨13, _⟩ => ⟨S50000x32, .i32⟩
  | .hbm, ⟨14, _⟩ => ⟨S50000x32, .i32⟩
  | .hbm, ⟨15, _⟩ => ⟨S50000x32x1, .i32⟩
  | .hbm, ⟨16, _⟩ => ⟨S50000x32, .f32⟩
  | .hbm, ⟨17, _⟩ => ⟨S50000x32x128, .f32⟩
  | .hbm, ⟨18, _⟩ => ⟨S1x128, .f32⟩
  | .hbm, ⟨19, _⟩ => ⟨S50000x128, .f32⟩
  | .local _ .vmem, ⟨0, _⟩ => ⟨S1000x32, .f32⟩
  | .local _ .vmem, ⟨1, _⟩ => ⟨S1000x32, .f32⟩
  | .local _ .vmem, ⟨2, _⟩ => ⟨S1000x32x128, .f32⟩
  | .local _ .vmem, ⟨3, _⟩ => ⟨S1000x32x128, .f32⟩
  | .local _ .vmem, ⟨4, _⟩ => ⟨S128x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100001x1_S100001 : S100001x1.ShapeCasts S100001
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  shapeCasts_S1600000x128_S50000x32x128 : S1600000x128.ShapeCasts S50000x32x128
  shapeCasts_S128_S1x128 : S128.ShapeCasts S1x128
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  reduces_S1000x32_S1000 : S1000x32.Reduces [1] S1000
  shapeCasts_S1000_S1000x1 : S1000.ShapeCasts S1000x1
  broadcasts_S1000x1_S1000x32 : S1000x1.Broadcasts S1000x32
  inb_S1000x32x128_S1000x32x128_0_0_0 : ∀ a, (![0, 0, 0] : Fin 3 → Nat) a + S1000x32x128.size a ≤ S1000x32x128.size a
  h_S1000x32x128 : 0 < S1000x32x128.numel
  shapeCasts_S1000x32x128_S1000x32x128 : S1000x32x128.ShapeCasts S1000x32x128
  shapeCasts_S1000x32_S1000x32x1 : S1000x32.ShapeCasts S1000x32x1
  broadcasts_S1000x32x1_S1000x32x128 : S1000x32x1.Broadcasts S1000x32x128
  reduces_S1000x32x128_S1000x128 : S1000x32x128.Reduces [1] S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  gather_S100001_S50000x32x1_S50000x32_n_0_n_n_0_2_1_wf : GatherDims.WF S100001 S50000x32x1 S50000x32 [] [0] [] [0] [] 2 ![1]
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S50000x32.size a
  hwx0_0 : ∀ i : grid0.Coords, EltTy.bits .f32 = 32 ∨ (Rect.block (s := S50000x32) S1000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)

variable [Facts₀]

def gather_S100001_S50000x32x1_S50000x32_n_0_n_n_0_2_1 : GatherDims S100001 S50000x32x1 S50000x32 where
  offsetDims := []
  collapsedSliceDims := [0]
  operandBatchingDims := []
  startIndicesBatchingDims := []
  startIndexMap := [0]
  indexVectorDim := 2
  sliceSizes := ![1]
  wf := gather_S100001_S50000x32x1_S50000x32_n_0_n_n_0_2_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v7) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S_ : Shape := ⟨0, ![]⟩
abbrev S50000x32x1 : Shape := ⟨3, ![50000, 32, 1]⟩
abbrev S50000x1 : Shape := ⟨2, ![50000, 1]⟩
abbrev S50000x32x128 : Shape := ⟨3, ![50000, 32, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S50000, .i32⟩
  | .hbm, ⟨3, _⟩ => ⟨S50000x32, .i32⟩
  | .hbm, ⟨4, _⟩ => ⟨S100001x1, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S50000x32, .i32⟩
  | .hbm, ⟨9, _⟩ => ⟨S50000x32, .i1⟩
  | .hbm, ⟨10, _⟩ => ⟨S_, .i32⟩
  | .hbm, ⟨11, _⟩ => ⟨S50000x32, .i32⟩
  | .hbm, ⟨12, _⟩ => ⟨S50000x32, .i32⟩
  | .hbm, ⟨13, _⟩ => ⟨S50000x32, .i32⟩
  | .hbm, ⟨14, _⟩ => ⟨S50000x32x1, .i32⟩
  | .hbm, ⟨15, _⟩ => ⟨S50000x32x1, .f32⟩
  | .hbm, ⟨16, _⟩ => ⟨S50000x32, .f32⟩
  | .hbm, ⟨17, _⟩ => ⟨S_, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x32, .f32⟩
  | .hbm, ⟨24, _⟩ => ⟨S50000x32, .f32⟩
  | .hbm, ⟨25, _⟩ => ⟨S50000x32, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S50000x32, .f32⟩
  | .hbm, ⟨30, _⟩ => ⟨S50000x32, .f32⟩
  | .hbm, ⟨31, _⟩ => ⟨S50000x32x1, .f32⟩
  | .hbm, ⟨32, _⟩ => ⟨S50000x32x128, .f32⟩
  | .hbm, ⟨33, _⟩ => ⟨S50000x32x128, .f32⟩
  | .hbm, ⟨34, _⟩ => ⟨S50000x32x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  shapeCasts_S50000x32x1_S50000x32 : S50000x32x1.ShapeCasts S50000x32
  reducesTo_S50000x32_S50000_d1 : S50000x32.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  shapeCasts_S1600000x128_S50000x32x128 : S1600000x128.ShapeCasts S50000x32x128
  bcast_S50000x32x1_S50000x32x128_0_1_2 : S50000x32x1.BroadcastsInDim S50000x32x128 (![0, 1, 2] : Fin 3 → Fin S50000x32x128.rank)
  reducesTo_S50000x32x128_S50000x128_d1 : S50000x32x128.ReducesTo [1] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100001x1_S50000x32x1_S50000x32x1_2_0_n_n_0_2_11_wf : GatherDims.WF S100001x1 S50000x32x1 S50000x32x1 [2] [0] [] [0] [] 2 ![1, 1]
  dot_S50000x128_S128x128_S50000x128_1_0_0_1_n_n_wf : DotDims.WF S50000x128 S128x128 S50000x128 [1] [0] [0] [1] [] []

variable [Facts₀]

def gather_S100001x1_S50000x32x1_S50000x32x1_2_0_n_n_0_2_11 : GatherDims S100001x1 S50000x32x1 S50000x32x1 where
  offsetDims := [2]
  collapsedSliceDims := [0]
  operandBatchingDims := []
  startIndicesBatchingDims := []
  startIndexMap := [0]
  indexVectorDim := 2
  sliceSizes := ![1, 1]
  wf := gather_S100001x1_S50000x32x1_S50000x32x1_2_0_n_n_0_2_11_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibColumnLayout.lean ====
/-
  Column-shaped layout operations read at an index given by coordinates: a vector made a one-column matrix,
  a one-column matrix spread along its rows, a matrix given a trailing unit axis, and that axis spread; and the
  index a one-axis reduction inserts on the LAST BUT ONE or LAST axis, written by coordinates. General facts about
  shapes, stated for any extents.
-/
import Idealize.ShloMosaic.Lib.Pipeline.Value
import Idealize.ShloMosaic.Lib.ValueIdx
import Idealize.ShloMosaic.PureOps.Reduce

namespace Idealize.ShloMosaic.ColumnLayout

open Idealize.ShloMosaic Idealize.ShloMosaic.ValueIdx

variable {α : Type}

/-- A vector `[a]` cast to the one-column matrix `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column matrix `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, b, 1]` reads, at `(i, k, u)`, the matrix at `(i, k)`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    omega)

/-- An array `[a, b, 1]` broadcast to `[a, b, c]` reads, at `(i, k, j)`, the operand at `(i, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- Reducing a matrix `[a, b]` over its columns: the index inserted at row `i` and coordinate `k` is `(i, k)`. -/
theorem lift_ab_a {a b : ℕ} (h : (⟨2, ![a, b]⟩ : Shape).Reduces [1] ⟨1, ![a]⟩) (i : Fin a) (k : Fin b) :
    h.lift (ix1 i) k = ix2 i k := by
  funext ax; apply Fin.ext
  match ax with
  | ⟨0, _⟩ => rfl
  | ⟨1, _⟩ => rfl

/-- Reducing an array `[a, b, c]` over its middle axis: the index inserted at `(i, j)` and coordinate `k` is `(i, k, j)`. -/
theorem lift_abc_ac {a b c : ℕ} (h : (⟨3, ![a, b, c]⟩ : Shape).Reduces [1] ⟨2, ![a, c]⟩) (i : Fin a) (j : Fin c) (k : Fin b) :
    h.lift (ix2 i j) k = ix3 i k j := by
  funext ax; apply Fin.ext
  match ax with
  | ⟨0, _⟩ => rfl
  | ⟨1, _⟩ => rfl
  | ⟨2, _⟩ => rfl

end Idealize.ShloMosaic.ColumnLayout
-- ==== Proof.RowSpec.lean ====
/-
  What one output entry is, as a function of the data it depends on. Entry (n, q) of the result depends on the 32 raw
  weights of node n (a row `r`), on node n's 32 × 128 neighbour features `f`, on column q of the 128 × 128 matrix `wc`
  and on entry q of the bias `bq`: with m = max(−∞, max_k r k) and e k = exp (r k − m),
      softW r k = e k / Σ_k' e k'            (the softmax weight of neighbour k)
      rowOut    = Σ_j (Σ_k softW r k · f k j) · wc j + bq
  on the extended reals. Both programs compute exactly this term; nothing here needs the weights to be finite.
-/
import Idealize.ShloMosaic.PureOps.Ideal

noncomputable section

namespace Cert.Agg

open Idealize.ShloMosaic
open scoped BigOperators

/-- The row's maximum, taken from −∞ (the f32 word both programs start from) and capped below by −∞ once more. -/
def rowMax (r : Fin 32 → EReal) : EReal :=
  max (Ideal.ofBits .f32 0xFF800000#32) ((Finset.univ : Finset (Fin 32)).fold max (Ideal.ofBits .f32 0xFF800000#32) r)

/-- The exponential of a weight's distance to the row's maximum. -/
def rowExp (r : Fin 32 → EReal) (k : Fin 32) : EReal := Ideal.exp (r k - rowMax r)

/-- The softmax weight of neighbour `k`. -/
def softW (r : Fin 32 → EReal) (k : Fin 32) : EReal := Ideal.div (rowExp r k) (∑ k' : Fin 32, rowExp r k')

/-- The weighted mean of the neighbours' features, feature `j`. -/
def rowAgg (r : Fin 32 → EReal) (f : Fin 32 → Fin 128 → EReal) (j : Fin 128) : EReal := ∑ k : Fin 32, softW r k * f k j

/-- One entry of the result: the aggregated features against a column of the matrix, plus the bias entry. -/
def rowOut (r : Fin 32 → EReal) (f : Fin 32 → Fin 128 → EReal) (wc : Fin 128 → EReal) (bq : EReal) : EReal :=
  (∑ j : Fin 128, rowAgg r f j * wc j) + bq

end Cert.Agg

end
-- ==== Proof.KernelRow.lean ====
/-
  The kernel body's result at one entry. The body loads a `[1000, 32]` block of raw weights, a `[1000, 32, 128]` block
  of neighbour features, the `[128, 128]` matrix and the `[1, 128]` bias row, and stores one `[1000, 128]` value. Read at
  row `p`, column `q`, that value is the row function (RowSpec) of row `p` of the weights, slab `p` of the features,
  column `q` of the matrix and entry `q` of the bias: the keepdims casts and broadcasts only move an index, the two
  reductions over the 32 neighbours are a fold of `max` and a sum, the narrowing to bf16 is the identity on the
  extended reals, and the matrix product into a zero accumulator is the sum over the 128 features.
-/
import proofs.«132402_j50491635532346_1_alg».proof.Proof.Gen.KernelIdeal.Skeleton
import proofs.«132402_j50491635532346_1_alg».proof.Proof.LibColumnLayout
import proofs.«132402_j50491635532346_1_alg».proof.Proof.RowSpec
import Idealize.ShloMosaic.PureOps.Ideal.Laws
import Idealize.ShloMosaic.Lib.ValueIdx
import Idealize.ShloMosaic.Lib.ValueLayout

noncomputable section

namespace Cert.Agg.KernelRow

open Idealize.ShloMosaic Idealize.ShloMosaic.ValueIdx Idealize.ShloMosaic.ColumnLayout Cert.KernelIdeal Cert.KernelIdeal.Gen
open scoped BigOperators

/-! ## The body's operations, one at a time, read at coordinates (all at the ideal values) -/

theorem exp_apply {s : Shape} (v : FVec Ideal s .f32) (i : s.Idx) : exp v i = Ideal.exp (v i) := rfl

/-- A per-row vector made a column and spread along the 32 neighbours reads, at `(p, k)`, the vector at row `p`. -/
theorem col_apply (M : FVec Ideal S1000 .f32) (hc : S1000.ShapeCasts S1000x1) (hb : S1000x1.Broadcasts S1000x32)
    (p : Fin 1000) (k : Fin 32) : broadcastTo S1000x32 (shapeCast S1000x1 M hc) hb (ix2 p k) = M (ix1 p) := by
  rw [broadcastTo_a1_ab_apply, shapeCast_a_a1_apply]

/-- A per-(row, neighbour) matrix given a unit axis and spread along the 128 features reads, at `(p, k, j)`, the
    matrix at `(p, k)`. -/
theorem slab_apply (P : FVec Ideal S1000x32 .f32) (hc : S1000x32.ShapeCasts S1000x32x1)
    (hb : S1000x32x1.Broadcasts S1000x32x128) (p : Fin 1000) (k : Fin 32) (j : Fin 128) :
    broadcastTo S1000x32x128 (shapeCast S1000x32x1 P hc) hb (ix3 p k j) = P (ix2 p k) := by
  rw [broadcastTo_ab1_abc_apply, shapeCast_ab_ab1_apply]

/-- The row maximum from −∞ is the fold of `max` over the row's 32 entries. -/
theorem rowmax_apply (x0 : FVec Ideal S1000x32 .f32) (h : S1000x32.Reduces [1] S1000) (p : Fin 1000) :
    multiReduction .maximumf [1] S1000 x0 0xFF800000#32 h (.inl rfl) rfl (ix1 p)
      = (Finset.univ : Finset (Fin 32)).fold max (Ideal.ofBits .f32 0xFF800000#32) (fun k => x0 (ix2 p k)) := by
  have e : (x0 ∘ h.lift (ix1 p)) = fun k : Fin 32 => x0 (ix2 p k) := funext fun k => congrArg x0 (lift_ab_a h p k)
  refine (Ideal.multiReduction_maximumf_single x0 _ h _ _ (ix1 p)).trans ?_
  rw [e]
  rfl

/-- A sum along the 32 neighbours of a `[1000, 32]` block, at row `p`. -/
theorem rowsum_apply (E : FVec Ideal S1000x32 .f32) (h : S1000x32.Reduces [1] S1000) (p : Fin 1000) :
    multiReduction .add [1] S1000 E 0x00000000#32 h (.inl rfl) rfl (ix1 p) = ∑ k : Fin 32, E (ix2 p k) := by
  refine (Ideal.multiReduction_add_single E _ h _ _ (ix1 p)).trans ?_
  exact Finset.sum_congr rfl fun k _ => congrArg E (lift_ab_a h p k)

/-- A sum along the 32 neighbours of a `[1000, 32, 128]` block, at `(p, j)`. -/
theorem aggsum_apply (T : FVec Ideal S1000x32x128 .f32) (h : S1000x32x128.Reduces [1] S1000x128) (p : Fin 1000) (j : Fin 128) :
    multiReduction .add [1] S1000x128 T 0x00000000#32 h (.inl rfl) rfl (ix2 p j) = ∑ k : Fin 32, T (ix3 p k j) := by
  refine (Ideal.multiReduction_add_single T _ h _ _ (ix2 p j)).trans ?_
  exact Finset.sum_congr rfl fun k _ => congrArg T (lift_abc_ac h p j k)

/-! ## The product with the 128 × 128 matrix, read at `(p, q)` -/

theorem lhs_dot_0 (i : S1000x128.Idx) (c : dot_S1000x128_S128x128_S1000x128_1_0_0_1_n_n.contr.Idx) :
    (dot_S1000x128_S128x128_S1000x128_1_0_0_1_n_n.lhsIdx i c 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_dot_1 (i : S1000x128.Idx) (c : dot_S1000x128_S128x128_S1000x128_1_0_0_1_n_n.contr.Idx) :
    (dot_S1000x128_S128x128_S1000x128_1_0_0_1_n_n.lhsIdx i c 1).val = (c ⟨0, by decide⟩).val :=
  dot_S1000x128_S128x128_S1000x128_1_0_0_1_n_n.lhsIdx_val_of_single rfl i c
theorem rhs_dot_0 (i : S1000x128.Idx) (c : dot_S1000x128_S128x128_S1000x128_1_0_0_1_n_n.contr.Idx) :
    (dot_S1000x128_S128x128_S1000x128_1_0_0_1_n_n.rhsIdx i c 0).val = (c ⟨0, by decide⟩).val :=
  dot_S1000x128_S128x128_S1000x128_1_0_0_1_n_n.rhsIdx_val_of_single rfl i c
theorem rhs_dot_1 (i : S1000x128.Idx) (c : dot_S1000x128_S128x128_S1000x128_1_0_0_1_n_n.contr.Idx) :
    (dot_S1000x128_S128x128_S1000x128_1_0_0_1_n_n.rhsIdx i c 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Into a zero accumulator the product is, at `(p, q)`, the sum over the 128 features of row `p` of the left operand
    times column `q` of the right one. -/
theorem mm_apply (A : FVec Ideal S1000x128 .bf16) (B : FVec Ideal S128x128 .bf16) (p : Fin 1000) (q : Fin 128) :
    matmul dot_S1000x128_S128x128_S1000x128_1_0_0_1_n_n none A B (constant S1000x128 .f32 0x00000000#32) (ix2 p q)
      = ∑ j : Fin 128, A (ix2 p j) * B (ix2 j q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's result at `(p, q)` -/

/-- Entry `(p, q)` of what the body stores is the row function of row `p` of the weights block, slab `p` of the
    features block, column `q` of the matrix and entry `q` of the bias row. -/
theorem pay_apply (x0 : Vec Ideal S1000x32 .f32) (x1 : Vec Ideal S1000x32x128 .f32) (x2 : Vec Ideal S128x128 .f32)
    (x3 : Vec Ideal S1x128 .f32) (p : Fin 1000) (q : Fin 128) :
    k0_pay1 (F := Ideal) x0 x1 x2 x3 (ix2 p q)
      = rowOut (fun k => x0 (ix2 p k)) (fun k j => x1 (ix3 p k j)) (fun j => x2 (ix2 j q)) (x3 (ix2 (0 : Fin 1) q)) := by
  unfold k0_pay1 rowOut rowAgg
  simp only [shapeCast_self, addf_apply, mm_apply, truncf_apply, broadcastTo_1b_ab_apply]
  refine congrArg (· + _) (Finset.sum_congr rfl fun j _ => ?_)
  rw [aggsum_apply]
  refine congrArg (· * _) (Finset.sum_congr rfl fun k _ => ?_)
  simp only [mulf_apply, slab_apply, divf_apply, col_apply]
  rw [rowsum_apply]
  simp only [exp_apply, subf_apply, col_apply, maximumf_apply, broadcast_apply]
  rw [rowmax_apply]
  rfl

end Cert.Agg.KernelRow
end
-- ==== Proof.KernelArray.lean ====
/-
  From the 50 blocks to the result array. Point `t` of the grid reads rows `1000·t … 1000·t + 999` of the gathered
  weights and of the reshaped features and the whole matrix and bias row, and writes back rows `1000·t … 1000·t + 999`
  of the result; the 50 written blocks tile the `[50000, 128]` array. So after the run the array is ONE function `G`
  of the arrays the region found: entry `(n, q)` is the row function of node `n`'s data.
-/
import proofs.«132402_j50491635532346_1_alg».proof.Proof.Gen.KernelIdeal.Value
import proofs.«132402_j50491635532346_1_alg».proof.Proof.KernelRow
import Idealize.ShloMosaic.Lib.Pipeline.Value

set_option maxRecDepth 16384

noncomputable section

namespace Cert.Agg.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open scoped BigOperators

variable (m : (ℓ : Loc nD τ sig) → Buf (Elt Ideal) ℓ) (ρ : Dev nD → PrngReg)

/-! ## The arrays the region finds, and the result as one function of them

Grid point `t` (of 50) works on nodes `1000·t … 1000·t + 999`: it takes rows `1000·t + p` of the gathered weights and of
the reshaped features, the whole matrix and the whole bias row, and writes rows `1000·t + p` of the result. -/

/-- The gathered weights `[50000, 32]`, the features `[50000, 32, 128]`, the matrix and the bias row, as the region finds them. -/
abbrev wArr (c : Dev nD) : S50000x32.Idx → EReal := V m c main_v7
abbrev fArr (c : Dev nD) : S50000x32x128.Idx → EReal := V m c main_v8
abbrev mArr (c : Dev nD) : S128x128.Idx → EReal := V m c main_arg5
abbrev bArr (c : Dev nD) : S1x128.Idx → EReal := V m c main_v9

/-- Entry `(n, q)` of the result: the row function of node `n`'s weights and features, column `q`, bias entry `q`. -/
def G (c : Dev nD) : S50000x128.Idx → EReal := fun i =>
  rowOut (fun k => wArr m c (ix2 (i 0) k)) (fun k j => fArr m c (ix3 (i 0) k j)) (fun j => mArr m c (ix2 j (i 1)))
    (bArr m c (ix2 (0 : Fin 1) (i 1)))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 50 points: the weights, features and result blocks move with the point along
    the node axis; the matrix and the bias row stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 50 := by
  have h : t.val < cfg0.N := t.isLt
  have e : cfg0.N = 50 := N_0
  omega

/-- The node that row `p` of point `t`'s blocks is. -/
def node (t : Fin cfg0.N) (p : Fin 1000) : Fin 50000 := ⟨t.val * 1000 + p.val, by have := t_lt t; have := p.isLt; omega⟩

/-! ## Each input block read at coordinates -/

theorem wblk_apply (c : Dev nD) (t : Fin cfg0.N) (p : Fin 1000) (k : Fin 32) :
    (iblk m c 0 t : Vec Ideal S1000x32 .f32) (ix2 p k) = wArr m c (ix2 (node t p) k) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 32 + 1 * k.val = k.val; rw [e1]; omega

theorem fblk_apply (c : Dev nD) (t : Fin cfg0.N) (p : Fin 1000) (k : Fin 32) (j : Fin 128) :
    (iblk m c 1 t : Vec Ideal S1000x32x128 .f32) (ix3 p k j) = fArr m c (ix3 (node t p) k j) := by
  obtain ⟨-, -, e0, e1, e2, -⟩ := idx_facts t
  unfold iblk
  rw [View.read_apply]
  show V m c main_v8 _ = V m c main_v8 _
  congr 1
  funext a
  apply Fin.ext
  match a with
  | ⟨0, _⟩ => show win0_1.index t (0 : Fin 3) * 1000 + 1 * p.val = t.val * 1000 + p.val; rw [e0]; omega
  | ⟨1, _⟩ => show win0_1.index t (1 : Fin 3) * 32 + 1 * k.val = k.val; rw [e1]; omega
  | ⟨2, _⟩ => show win0_1.index t (2 : Fin 3) * 128 + 1 * j.val = j.val; rw [e2]; omega

theorem mblk_apply (c : Dev nD) (t : Fin cfg0.N) (j q : Fin 128) :
    (iblk m c 2 t : Vec Ideal S128x128 .f32) (ix2 j q) = mArr m c (ix2 j q) := by
  obtain ⟨-, -, -, -, -, e0, e1, -⟩ := idx_facts t
  unfold iblk
  rw [View.read_apply]
  show V m c main_arg5 _ = V m c main_arg5 _
  congr 1
  funext a
  apply Fin.ext
  match a with
  | ⟨0, _⟩ => show win0_2.index t (0 : Fin 2) * 128 + 1 * j.val = j.val; rw [e0]; omega
  | ⟨1, _⟩ => show win0_2.index t (1 : Fin 2) * 128 + 1 * q.val = q.val; rw [e1]; omega

theorem bblk_apply (c : Dev nD) (t : Fin cfg0.N) (u : Fin 1) (q : Fin 128) :
    (iblk m c 3 t : Vec Ideal S1x128 .f32) (ix2 u q) = bArr m c (ix2 u q) := by
  obtain ⟨-, -, -, -, -, -, -, e0, e1, -⟩ := idx_facts t
  unfold iblk
  rw [View.read_apply]
  show V m c main_v9 _ = V m c main_v9 _
  congr 1
  funext a
  apply Fin.ext
  match a with
  | ⟨0, _⟩ => show win0_3.index t (0 : Fin 2) * 1 + 1 * u.val = u.val; rw [e0]; omega
  | ⟨1, _⟩ => show win0_3.index t (1 : Fin 2) * 128 + 1 * q.val = q.val; rw [e1]; omega

/-! ## What a point writes back, the cover, and the array after the run -/

/-- The result block's index `(p, q)` at point `t` is the array's `(1000·t + p, q)`. -/
theorem oblk_emb (t : Fin cfg0.N) (p : Fin 1000) (q : Fin 128) :
    ((cfg0.win 4).blk t).view.emb (ix2 p q) = (ix2 (node t p) q : S50000x128.Idx) := by
  obtain ⟨-, -, -, -, -, -, -, -, -, e0, e1⟩ := idx_facts t
  funext a
  apply Fin.ext
  match a with
  | ⟨0, _⟩ => show win0_4.index t (0 : Fin 2) * 1000 + 1 * p.val = t.val * 1000 + p.val; rw [e0]; omega
  | ⟨1, _⟩ => show win0_4.index t (1 : Fin 2) * 128 + 1 * q.val = q.val; rw [e1]; omega

/-- WHAT POINT `t` WRITES BACK is block `t` of `G`: entry `(p, q)` of the body's result is the row function of the
    blocks' row `p`, which are the arrays' row `1000·t + p`. -/
theorem flushed_eq (c : Dev nD) (t : Fin cfg0.N) :
    (dats m 0 c).flushed 4 t = ((cfg0.win 4).blk t).view.read (Elt Ideal) (G m c) := by
  rw [flushed4]
  unfold out0_4
  rw [View.canon_unit_zero hz2]
  simp only [View.ld_unit_zero (S := S1000x32) hz2, View.ld_unit_zero (S := S1000x32x128) hz3,
    View.ld_unit_zero (S := S128x128) hz2, View.ld_unit_zero (S := S1x128) hz2]
  funext y
  obtain ⟨p, q, rfl⟩ : ∃ (p : Fin 1000) (q : Fin 128), y = ix2 p q := ⟨y 0, y 1, eq_ix2 y⟩
  show k0_pay1 (F := Ideal) (iblk m c 0 t) (iblk m c 1 t) (iblk m c 2 t) (iblk m c 3 t) (ix2 p q)
    = G m c (((cfg0.win 4).blk t).view.emb (ix2 p q))
  rw [oblk_emb]
  refine (KernelRow.pay_apply (iblk m c 0 t) (iblk m c 1 t) (iblk m c 2 t) (iblk m c 3 t) p q).trans ?_
  unfold G
  simp only [wblk_apply, fblk_apply, mblk_apply, bblk_apply]

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v10).slice (win0_4.rect t)).set ↔ _
  rw [View.set_slice_whole, Rect.mem_set_unit]
  exact Iff.rfl

/-- Every block index along the node axis is some point's. -/
theorem idx_onto : ∀ (b : Fin 50), ∃ t : Fin cfg0.N, win0_4.index t = ![b.val, 0] :=
  (by decide +kernel : ∀ (b : Fin 50), ∃ t : Fin grid0.N, win0_4.index t = ![b.val, 0])

/-- Every entry of the result is written back by the point of its node's thousand. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

/-- THE ARRAY after the run is `G` of the arrays the region found. -/
theorem final (c : Dev nD) : (dats m 0 c).arrAt 4 cfg0.N = G m c :=
  (dats m 0 c).arrAt_eq_of_cover 4 (G m c) (fun t _ => flushed_eq m c t) cover

/-- The frame run re-posted: the result array at `G`, the arguments unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Agg.KernelArray

end
-- ==== Proof.KernelInputs.lean ====
import proofs.«132402_j50491635532346_1_alg».proof.Proof.KernelArray
import Idealize.ShloMosaic.Lib.StableHlo.Run

set_option maxRecDepth 16384

noncomputable section

namespace Cert.Agg.KernelArray

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-! ## The arrays the region finds, as terms of the arguments

Before the region the program flattens the table, makes negative indices count from the end (`idx < 0 → idx + 100001`),
takes the table's entries at the indices, and reshapes the features and the bias. -/

/-- The neighbour indices with negative ones wrapped, as start indices `[50000, 32, 1]`. -/
abbrev startIdx (c : Dev nD) : IVec S50000x32x1 32 :=
  broadcastInDim S50000x32x1 ![0, 1] bcast_S50000x32_S50000x32x1_0_1
    (select (cmpi .slt (m ((c.tc : Thread nD τ).loc main_arg3)) (broadcastInDim S50000x32 ![] bcast_S_S50000x32 (constantI S_ 32 0#32)))
      (addi (m ((c.tc : Thread nD τ).loc main_arg3)) (broadcastInDim S50000x32 ![] bcast_S_S50000x32 (constantI S_ 32 100001#32)))
      (m ((c.tc : Thread nD τ).loc main_arg3)))

/-- The gathered weights: the flattened table at the wrapped indices. -/
theorem wArr_eq (c : Dev nD) :
    wArr m c = Host.gather gather_S100001_S50000x32x1_S50000x32_n_0_n_n_0_2_1
      (shapeCast S100001 (m ((c.tc : Thread nD τ).loc main_arg4)) shapeCasts_S100001x1_S100001) (startIdx m c) := by
  dsimp only [wArr, V, hostOps0]
  after_results
  rfl

/-- The features, reshaped to `[50000, 32, 128]`. -/
theorem fArr_eq (c : Dev nD) :
    fArr m c = shapeCast S50000x32x128 (m ((c.tc : Thread nD τ).loc main_arg1)) shapeCasts_S1600000x128_S50000x32x128 := by
  dsimp only [fArr, V, hostOps0]
  after_results
  rfl

/-- The matrix, as launched. -/
theorem mArr_eq (c : Dev nD) : mArr m c = m ((c.tc : Thread nD τ).loc main_arg5) := V_main_arg5 m c

/-- The bias, reshaped to one row. -/
theorem bArr_eq (c : Dev nD) :
    bArr m c = shapeCast S1x128 (m ((c.tc : Thread nD τ).loc main_arg6)) shapeCasts_S128_S1x128 := by
  dsimp only [bArr, V, hostOps0]
  after_results
  rfl

end Cert.Agg.KernelArray

end
-- ==== Proof.RefRow.lean ====
/-
  The reference's result at one entry. Its stages after the gather are read one at a time at node `n` (neighbour `k`,
  feature `j`, column `q`): the row maximum from −∞, the exponentials, their sum, the quotient, the product with the
  features (feature · weight, where the specification has weight · feature: the one commutation), the sum over the
  neighbours, the product with the matrix as a sum over the features, the bias. The result is the row function
  (RowSpec) of node `n`'s gathered weights and reshaped features.
-/
import proofs.«132402_j50491635532346_1_alg».proof.Proof.Gen.ReferenceIdeal.Read
import proofs.«132402_j50491635532346_1_alg».proof.Proof.RowSpec
import Idealize.ShloMosaic.PureOps.Ideal.Laws
import Idealize.ShloMosaic.Lib.ValueIdx

noncomputable section

namespace Cert.Agg.RefRow

open Idealize.ShloMosaic Idealize.ShloMosaic.ValueIdx Cert.ReferenceIdeal Cert.ReferenceIdeal.Gen Cert.ReferenceIdeal.Read
open scoped BigOperators

/-! ## The reference, stage by stage, read at coordinates

The gathered weights (stage 7) and the reshaped features (stage 20) are kept as they are; every later stage is read
at node `n`, neighbour `k`, feature `j`, output column `q`. -/

variable (x1 : (⟨S1600000x128, .f32⟩ : BufTy).Contents (Elt Ideal)) (x3 : (⟨S50000x32, .i32⟩ : BufTy).Contents (Elt Ideal))
  (x4 : (⟨S100001x1, .f32⟩ : BufTy).Contents (Elt Ideal)) (x5 : (⟨S128x128, .f32⟩ : BufTy).Contents (Elt Ideal))
  (x6 : (⟨S128, .f32⟩ : BufTy).Contents (Elt Ideal))

/-- Node `n`'s 32 gathered weights. -/
abbrev wrow (n : Fin 50000) : Fin 32 → EReal := fun k => val_main_v7 (F := Ideal) x3 x4 (ix2 n k)
/-- Node `n`'s 32 × 128 neighbour features. -/
abbrev frow (n : Fin 50000) : Fin 32 → Fin 128 → EReal := fun k j => val_main_v20 (F := Ideal) x1 (ix3 n k j)

/-- The row maximum from −∞, capped below by −∞. -/
theorem v10_row (n : Fin 50000) : val_main_v10 (F := Ideal) x3 x4 (ix1 n) = rowMax (wrow x3 x4 n) := by
  rw [val_main_v10_apply]
  unfold val_main_v8
  refine (congrArg (FloatOps.maximumf _) (Host.reduce_eq_fold_single FloatOps.maximumf _ _ reducesTo_S50000x32_S50000_d1 (by decide) h_S_ (ix1 n))).trans ?_
  unfold rowMax
  have e : (val_main_v7 (F := Ideal) x3 x4 ∘ (by decide : S50000x32.Reduces [1] S50000).lift (ix1 n)) = wrow x3 x4 n :=
    funext fun k => congrArg (val_main_v7 (F := Ideal) x3 x4) (funext fun a => Fin.ext (by
      match a with
      | ⟨0, _⟩ => rfl
      | ⟨1, _⟩ => rfl))
  rw [e]
  rfl

theorem v12_row (n : Fin 50000) (k : Fin 32) : val_main_v12 (F := Ideal) x3 x4 (ix2 n k) = rowMax (wrow x3 x4 n) := by
  have e12 : idx_main_v12 (ix2 n k) = ix2 n (0 : Fin 1) := funext fun a => Fin.ext (by
    match a with
    | ⟨0, _⟩ => rfl
    | ⟨1, _⟩ => rfl)
  have e11 : idx_main_v11 (ix2 n (0 : Fin 1)) = ix1 n := funext fun a => Fin.ext (by
    match a with
    | ⟨0, _⟩ => rfl)
  rw [val_main_v12_apply, e12, val_main_v11_apply, e11, v10_row]

theorem v14_row (n : Fin 50000) (k : Fin 32) : val_main_v14 (F := Ideal) x3 x4 (ix2 n k) = rowExp (wrow x3 x4 n) k := by
  rw [val_main_v14_apply, val_main_v13_apply, v12_row]
  rfl

theorem v15_row (n : Fin 50000) : val_main_v15 (F := Ideal) x3 x4 (ix1 n) = ∑ k : Fin 32, rowExp (wrow x3 x4 n) k := by
  rw [val_main_v15_apply, val_main_cst_2_apply]
  show Ideal.ofBits .f32 0x00000000#32 + _ = _
  rw [Ideal.ofBits_zero_f32, zero_add]
  refine Finset.sum_congr rfl fun k _ => ?_
  have e15 : idx_main_v15 (ix1 n) k = ix2 n k := funext fun a => Fin.ext (by
    match a with
    | ⟨0, _⟩ => rfl
    | ⟨1, _⟩ => rfl)
  rw [e15, v14_row]

theorem v18_row (n : Fin 50000) (k : Fin 32) : val_main_v18 (F := Ideal) x3 x4 (ix2 n k) = softW (wrow x3 x4 n) k := by
  have e17 : idx_main_v17 (ix2 n k) = ix2 n (0 : Fin 1) := funext fun a => Fin.ext (by
    match a with
    | ⟨0, _⟩ => rfl
    | ⟨1, _⟩ => rfl)
  have e16 : idx_main_v16 (ix2 n (0 : Fin 1)) = ix1 n := funext fun a => Fin.ext (by
    match a with
    | ⟨0, _⟩ => rfl)
  rw [val_main_v18_apply, val_main_v17_apply, e17, val_main_v16_apply, e16, v15_row, v14_row]
  rfl

theorem v21_row (n : Fin 50000) (k : Fin 32) (j : Fin 128) :
    val_main_v21 (F := Ideal) x3 x4 (ix3 n k j) = softW (wrow x3 x4 n) k := by
  have e21 : idx_main_v21 (ix3 n k j) = ix3 n k (0 : Fin 1) := funext fun a => Fin.ext (by
    match a with
    | ⟨0, _⟩ => rfl
    | ⟨1, _⟩ => rfl
    | ⟨2, _⟩ => rfl)
  have e19 : idx_main_v19 (ix3 n k (0 : Fin 1)) = ix2 n k := funext fun a => Fin.ext (by
    match a with
    | ⟨0, _⟩ => rfl
    | ⟨1, _⟩ => rfl)
  rw [val_main_v21_apply, e21, val_main_v19_apply, e19, v18_row]

/-- The weighted sum of node `n`'s neighbour features, feature `j`: the reference multiplies feature by weight, the
    specification weight by feature. -/
theorem v23_row (n : Fin 50000) (j : Fin 128) :
    val_main_v23 (F := Ideal) x1 x3 x4 (ix2 n j) = rowAgg (wrow x3 x4 n) (frow x1 n) j := by
  rw [val_main_v23_apply, val_main_cst_3_apply]
  show Ideal.ofBits .f32 0x00000000#32 + _ = _
  rw [Ideal.ofBits_zero_f32, zero_add]
  unfold rowAgg
  refine Finset.sum_congr rfl fun k _ => ?_
  have e23 : idx_main_v23 (ix2 n j) k = ix3 n k j := funext fun a => Fin.ext (by
    match a with
    | ⟨0, _⟩ => rfl
    | ⟨1, _⟩ => rfl
    | ⟨2, _⟩ => rfl)
  rw [e23, val_main_v22_apply, v21_row]
  exact mul_comm _ _

/-- Entry `(n, q)` of the reference's result is the row function of node `n`'s gathered weights and features, column
    `q` of the matrix and entry `q` of the bias. -/
theorem ref_apply (n : Fin 50000) (q : Fin 128) :
    val_main_v27 (F := Ideal) x1 x3 x4 x5 x6 (ix2 n q)
      = rowOut (wrow x3 x4 n) (frow x1 n) (fun j => x5 (ix2 j q)) (x6 (ix1 q)) := by
  have e26 : idx_main_v26 (ix2 n q) = ix2 (0 : Fin 1) q := funext fun a => Fin.ext (by
    match a with
    | ⟨0, _⟩ => rfl
    | ⟨1, _⟩ => rfl)
  have e25 : idx_main_v25 (ix2 (0 : Fin 1) q) = ix1 q := funext fun a => Fin.ext (by
    match a with
    | ⟨0, _⟩ => rfl)
  have h26 : val_main_v26 (F := Ideal) x6 (ix2 n q) = x6 (ix1 q) := by
    rw [val_main_v26_apply, e26, val_main_v25_apply, e25]
  have h24 : val_main_v24 (F := Ideal) x1 x3 x4 x5 (ix2 n q)
      = ∑ j : Fin 128, rowAgg (wrow x3 x4 n) (frow x1 n) j * x5 (ix2 j q) := by
    rw [val_main_v24_apply]
    refine Finset.sum_congr rfl fun j _ => ?_
    have el : lidx_main_v24 (ix2 n q) j = ix2 n j := funext fun a => Fin.ext (by
      match a with
      | ⟨0, _⟩ => rfl
      | ⟨1, _⟩ => rfl)
    have er : ridx_main_v24 (ix2 n q) j = ix2 j q := funext fun a => Fin.ext (by
      match a with
      | ⟨0, _⟩ => rfl
      | ⟨1, _⟩ => rfl)
    rw [el, er, v23_row]
  refine (val_main_v27_apply (F := Ideal) x1 x3 x4 x5 x6 (ix2 n q)).trans ?_
  exact congrArg₂ (· + ·) h24 h26

end Cert.Agg.RefRow

end
-- ==== Proof.LibGatherColumn.lean ====
/-
  Taking entries of a ONE-COLUMN table by an integer array: the gather of a `[N, 1]` operand at `[R, C, 1]` start
  indices keeping the unit column (what `x[idx]` of a one-column table lowers to), read at an index — the table at
  the start index read signed and clamped into `[0, N − 1]` —, and the two casts that drop a trailing unit axis.
  With Lib/ValueIdx.lean's `gather_take_apply` (the same on the column flattened to a vector) this says the two
  spellings take the same entries. General facts, stated for any extents.
-/
import Idealize.ShloMosaic.Lib.Pipeline.Value
import Idealize.ShloMosaic.Lib.ValueIdx

namespace Idealize.ShloMosaic.GatherColumn

open Idealize.ShloMosaic Idealize.ShloMosaic.ValueIdx

variable {α : Type}

/-- A one-column matrix `[a, 1]` cast to the vector `[a]` reads, at `i`, the matrix at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An array `[a, b, 1]` cast to the matrix `[a, b]` reads, at `(i, k)`, the array at `(i, k, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (k : Fin b) :
    shapeCast ⟨2, ![a, b]⟩ x h (ix2 i k) = x (ix3 i k (0 : Fin 1)) :=
  shapeCast_apply x h _ _ (by
    rw [Shape.rowMajor_val_three, Shape.rowMajor_val_two]
    show (i.val * b + k.val) * 1 + 0 = i.val * b + k.val
    omega)

/-- The dimension numbers of `x[idx]` for a one-column table `[N, 1]`, start indices `[R, C, 1]` and result
    `[R, C, 1]`: the row axis collapsed and indexed, the unit column kept as the result's last axis. -/
abbrev colTakeDims (N R C : Nat)
    (wf : GatherDims.WF ⟨2, ![N, 1]⟩ ⟨3, ![R, C, 1]⟩ ⟨3, ![R, C, 1]⟩ [2] [0] [] [0] [] 2 ![1, 1]) :
    GatherDims ⟨2, ![N, 1]⟩ ⟨3, ![R, C, 1]⟩ ⟨3, ![R, C, 1]⟩ where
  offsetDims := [2]
  collapsedSliceDims := [0]
  operandBatchingDims := []
  startIndicesBatchingDims := []
  startIndexMap := [0]
  indexVectorDim := 2
  sliceSizes := ![1, 1]
  wf := wf

/-- THE GATHER READ AT `(t, j, o)`: the table's one column at the start index `idx[t, j, 0]`, read signed and
    clamped into `[0, N − 1]`. -/
theorem gather_colTake_apply {N R C w : Nat} (hN : 0 < N)
    (wf : GatherDims.WF ⟨2, ![N, 1]⟩ ⟨3, ![R, C, 1]⟩ ⟨3, ![R, C, 1]⟩ [2] [0] [] [0] [] 2 ![1, 1])
    (x : (⟨2, ![N, 1]⟩ : Shape).Idx → α) (idx : IVec ⟨3, ![R, C, 1]⟩ w) (t : Fin R) (j : Fin C) (o : Fin 1) :
    Host.gather (colTakeDims N R C wf) x idx (ix3 t j o)
      = x (ix2 ⟨min (idx (ix3 t j (0 : Fin 1))).toInt.toNat (N - 1), by omega⟩ (0 : Fin 1)) := by
  unfold Host.gather
  congr 1
  funext a
  refine Fin.ext ?_
  match a with
  | ⟨0, _⟩ =>
    show (colTakeDims N R C wf).start (ix3 t j o) idx 0 + (colTakeDims N R C wf).batchCoord (ix3 t j o) 0
      + (colTakeDims N R C wf).offCoord (ix3 t j o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTakeDims N R C wf).startIndexMap from List.mem_singleton.mpr rfl)]
    have hsi : (colTakeDims N R C wf).siIdx (ix3 t j o) ⟨List.idxOf (0 : Fin 2) (colTakeDims N R C wf).startIndexMap,
        List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    rfl
  | ⟨1, h1⟩ =>
    exact Nat.lt_one_iff.mp (show _ < 1 from ((colTakeDims N R C wf).operandIdx (ix3 t j o) idx ⟨1, h1⟩).isLt)

end Idealize.ShloMosaic.GatherColumn
-- ==== Proof.Weights.lean ====
import proofs.«132402_j50491635532346_1_alg».proof.Proof.Gen.KernelIdeal
import proofs.«132402_j50491635532346_1_alg».proof.Proof.Gen.ReferenceIdeal
import proofs.«132402_j50491635532346_1_alg».proof.Proof.LibGatherColumn
import Idealize.ShloMosaic.Lib.ValueIdx

noncomputable section

namespace Cert.Agg.Weights

open Idealize.ShloMosaic Idealize.ShloMosaic.ValueIdx Idealize.ShloMosaic.GatherColumn

/-- THE TWO GATHERS TAKE THE SAME WEIGHTS. The kernel's program flattens the `[100001, 1]` table to a vector and takes
    `table[idx]`; the reference takes one-column rows of the table and drops the unit column afterwards. At node `n`,
    neighbour `k` both read the table's column at the start index `idx[n, k, 0]`, signed and clamped into `[0, 100000]`. -/
theorem gathered_eq {α : Type} (x4 : (⟨2, ![100001, 1]⟩ : Shape).Idx → α) (idx : IVec ⟨3, ![50000, 32, 1]⟩ 32)
    (hK : Cert.KernelIdeal.S100001x1.ShapeCasts Cert.KernelIdeal.S100001)
    (hR : Cert.ReferenceIdeal.S50000x32x1.ShapeCasts Cert.ReferenceIdeal.S50000x32) (n : Fin 50000) (k : Fin 32) :
    Host.gather Cert.KernelIdeal.gather_S100001_S50000x32x1_S50000x32_n_0_n_n_0_2_1
        (shapeCast Cert.KernelIdeal.S100001 x4 hK) idx (ix2 n k)
      = shapeCast Cert.ReferenceIdeal.S50000x32
          (Host.gather Cert.ReferenceIdeal.gather_S100001x1_S50000x32x1_S50000x32x1_2_0_n_n_0_2_11 x4 idx) hR (ix2 n k) := by
  have hL := gather_take_apply (N := 100001) (R := 50000) (C := 32) (by decide)
    Cert.KernelIdeal.Facts₀.gather_S100001_S50000x32x1_S50000x32_n_0_n_n_0_2_1_wf
    (shapeCast Cert.KernelIdeal.S100001 x4 hK) idx (ix2 n k)
  have hR' := gather_colTake_apply (N := 100001) (R := 50000) (C := 32) (by decide)
    Cert.ReferenceIdeal.Facts₀.gather_S100001x1_S50000x32x1_S50000x32x1_2_0_n_n_0_2_11_wf x4 idx n k (0 : Fin 1)
  refine (hL.trans ?_).trans ((shapeCast_ab1_ab_apply _ hR n k).trans hR').symm
  have e : takeIdx (ix2 n k) = ix3 n k (0 : Fin 1) := funext fun a => Fin.ext (by
    match a with
    | ⟨0, _⟩ => rfl
    | ⟨1, _⟩ => rfl
    | ⟨2, _⟩ => rfl)
  rw [shapeCast_a1_a_apply]
  simp only [e]

end Cert.Agg.Weights

end
-- ==== Proof.Bridge.lean ====
import proofs.«132402_j50491635532346_1_alg».proof.Proof.KernelInputs
import proofs.«132402_j50491635532346_1_alg».proof.Proof.RefRow
import proofs.«132402_j50491635532346_1_alg».proof.Proof.Weights
import Idealize.ShloMosaic.Lib.ValueLayout

set_option maxRecDepth 16384

noncomputable section

namespace Cert.Agg.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (c : Dev Cert.KernelIdeal.nD)

/-- The arguments the value depends on, as the reference's stages take them. -/
abbrev feats : (⟨Cert.ReferenceIdeal.S1600000x128, .f32⟩ : BufTy).Contents (Elt Ideal) :=
  m ((c.tc : Thread Cert.KernelIdeal.nD Cert.KernelIdeal.τ).loc Cert.KernelIdeal.main_arg1)
abbrev nids : (⟨Cert.ReferenceIdeal.S50000x32, .i32⟩ : BufTy).Contents (Elt Ideal) :=
  m ((c.tc : Thread Cert.KernelIdeal.nD Cert.KernelIdeal.τ).loc Cert.KernelIdeal.main_arg3)
abbrev table : (⟨Cert.ReferenceIdeal.S100001x1, .f32⟩ : BufTy).Contents (Elt Ideal) :=
  m ((c.tc : Thread Cert.KernelIdeal.nD Cert.KernelIdeal.τ).loc Cert.KernelIdeal.main_arg4)
abbrev mat : (⟨Cert.ReferenceIdeal.S128x128, .f32⟩ : BufTy).Contents (Elt Ideal) :=
  m ((c.tc : Thread Cert.KernelIdeal.nD Cert.KernelIdeal.τ).loc Cert.KernelIdeal.main_arg5)
abbrev bias : (⟨Cert.ReferenceIdeal.S128, .f32⟩ : BufTy).Contents (Elt Ideal) :=
  m ((c.tc : Thread Cert.KernelIdeal.nD Cert.KernelIdeal.τ).loc Cert.KernelIdeal.main_arg6)

/-- THE TWO RESULTS ARE ONE FUNCTION of the arguments: entry `(n, q)` of the reference's last stage and of the
    kernel's result array are both the row function — of the same 32 gathered weights (the two gathers take the same
    table entries), the same reshaped features, the same matrix column and the same bias entry. -/
theorem result_eq :
    Cert.ReferenceIdeal.Read.val_main_v27 (F := Ideal) (feats m c) (nids m c) (table m c) (mat m c) (bias m c)
      = KernelArray.G m c := by
  funext i
  obtain ⟨n, q, rfl⟩ : ∃ (n : Fin 50000) (q : Fin 128), i = ix2 n q := ⟨i 0, i 1, eq_ix2 i⟩
  refine (RefRow.ref_apply (feats m c) (nids m c) (table m c) (mat m c) (bias m c) n q).trans ?_
  unfold KernelArray.G
  have hw : ∀ k : Fin 32, RefRow.wrow (nids m c) (table m c) n k = KernelArray.wArr m c (ix2 n k) := fun k => by
    rw [KernelArray.wArr_eq]
    exact (Weights.gathered_eq (table m c) (KernelArray.startIdx m c) _ _ n k).symm
  have hf : ∀ (k : Fin 32) (j : Fin 128), RefRow.frow (feats m c) n k j = KernelArray.fArr m c (ix3 n k j) := fun k j => by
    rw [KernelArray.fArr_eq]
    rfl
  have hm : ∀ j : Fin 128, mat m c (ix2 j q) = KernelArray.mArr m c (ix2 j q) := fun j => by
    rw [KernelArray.mArr_eq]
  have hb : bias m c (ix1 q) = KernelArray.bArr m c (ix2 (0 : Fin 1) q) := by
    rw [KernelArray.bArr_eq, shapeCast_a_1a_apply]
  exact congr (congr (congr (congrArg Cert.Agg.rowOut (funext hw)) (funext fun k => funext fun j => hf k j)) (funext hm)) hb

end Cert.Agg.Bridge

end
-- ==== Proof.lean ====
/- The proof of `Cert.Claim`: a neighbour aggregation with softmax weights, then a linear layer.

   For each of 50000 nodes n: the 32 neighbour ids are wrapped (a negative id counts from the end of the 100001-row
   table) and clamped, the table's entries at them are the raw weights r; with m = max(−∞, max_k r k) and
   e k = exp (r k − m) the softmax weight of neighbour k is e k / Σ e; the node's aggregate is
   agg j = Σ_k softmax k · feats[n, k, j], and the result is out[n, q] = Σ_j agg j · W[j, q] + b[q].

   The kernel does the gather on the host (on the table flattened to a vector) and the rest in one region over 50 grid
   points of 1000 nodes each, with the product on the matrix unit; the reference does all of it on the host (gathering
   one-column rows and dropping the unit column). On the extended reals both are the SAME term: the only step that is an
   algebraic law is the order of one product (weight · feature against feature · weight); a change of float format is
   the identity, the matrix unit's product into a zero accumulator and the host's `dot_general` are the same sum, and so
   are the two sums over neighbours. Nothing needs the inputs to be finite, so the precondition is never opened.

   The frames of the two kernel programs are the generated ones; the reference's frame is its generated run with the
   result dropped; the idealization rewrote nothing, so `preserves` is `True`. For the value: `KernelRow` reads the
   body's result at an entry, `KernelArray` puts the 50 blocks together and `KernelInputs` names the arrays the region
   finds; `RefRow` reads the reference's stages at an entry; `Weights` shows the two gathers take the same entries;
   `Bridge` joins the two. -/
import proofs.«132402_j50491635532346_1_alg».proof.Defs
import proofs.«132402_j50491635532346_1_alg».proof.Proof.Gen.Kernel
import proofs.«132402_j50491635532346_1_alg».proof.Proof.Gen.Kernel.Skeleton
import proofs.«132402_j50491635532346_1_alg».proof.Proof.Gen.Kernel.Launch
import proofs.«132402_j50491635532346_1_alg».proof.Proof.Gen.Kernel.Points
import proofs.«132402_j50491635532346_1_alg».proof.Proof.Gen.Kernel.Frame
import proofs.«132402_j50491635532346_1_alg».proof.Proof.Gen.KernelIdeal
import proofs.«132402_j50491635532346_1_alg».proof.Proof.Gen.KernelIdeal.Skeleton
import proofs.«132402_j50491635532346_1_alg».proof.Proof.Gen.KernelIdeal.Launch
import proofs.«132402_j50491635532346_1_alg».proof.Proof.Gen.KernelIdeal.Points
import proofs.«132402_j50491635532346_1_alg».proof.Proof.Gen.KernelIdeal.Frame
import proofs.«132402_j50491635532346_1_alg».proof.Proof.Gen.ReferenceIdeal
import proofs.«132402_j50491635532346_1_alg».proof.Proof.Gen.Pre_finite_inputs
import proofs.«132402_j50491635532346_1_alg».proof.Proof.Gen.KernelIdeal.Value
import proofs.«132402_j50491635532346_1_alg».proof.Proof.Gen.ReferenceIdeal.Run
import proofs.«132402_j50491635532346_1_alg».proof.Proof.Gen.ReferenceIdeal.Read
import proofs.«132402_j50491635532346_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the row function of the arguments entry by entry (the 50
    blocks put together), and the reference's last stage, run from arguments that agree, is the same function. -/
theorem algebraic : Cert.algebraic_KernelIdeal_ReferenceIdeal := by
  intro m ρ m' ρ' _ hagree
  refine ⟨fun c => Cert.Agg.KernelArray.G m c, Cert.Agg.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, -, h3, h4, h5, h6⟩ := hagree c
  rw [h1, h3, h4, h5, h6, Cert.ReferenceIdeal.Read.val_main_v27_eq]
  exact Cert.Agg.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
